-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x1 .f32) (main_arg12 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64x64 .f32) (main_arg7 : FVec F S64x64 .f32) (main_arg8 : FVec F S64x64 .f32) (main_arg9 : FVec F S64x64 .f32) (main_arg10 : FVec F S64 .f32) (main_arg11 : FVec F S64x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x64 .f32) (main_arg4 : FVec F S128x64 .f32) (main_arg5 : FVec F S64x64 .f32) (main_arg6 : FVec F S64x64 .f32) (main_arg7 : FVec F S64x64 .f32) (main_arg8 : FVec F S64x64 .f32) (main_arg9 : FVec F S64x64 .f32) (main_arg10 : FVec F S64 .f32) (main_arg11 : FVec F S64x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x64 : Shape := ⟨2, ![800000, 64]⟩
abbrev S16000x128 : Shape := ⟨2, ![16000, 128]⟩
abbrev S16000x64 : Shape := ⟨2, ![16000, 64]⟩
abbrev S50000x64 : Shape := ⟨2, ![50000, 64]⟩
abbrev S10000x128 : Shape := ⟨2, ![10000, 128]⟩
abbrev S10000x64 : Shape := ⟨2, ![10000, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S1x64 : Shape := ⟨2, ![1, 64]⟩
abbrev S1x1 : Shape := ⟨2, ![1, 1]⟩

abbrev nBuf : Space → Nat
  | .hbm => 81
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S128x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S800000x64, .f32⟩
  | .hbm, ⟨27, _⟩ => ⟨S_, .f32⟩
  | .hbm, ⟨28, _⟩ => ⟨S50000x64, .f32⟩
  | .hbm, ⟨29, _⟩ => ⟨S800000x1, .i32⟩
  | .hbm, ⟨30, _⟩ => ⟨S50000x64, .f32⟩
  | .hbm, ⟨31, _⟩ => ⟨S50000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .hbm, ⟨61, _⟩ => ⟨S50000x64, .f32⟩
  | .hbm, ⟨62, _⟩ => ⟨S_, .f32⟩
  | .hbm, ⟨63, _⟩ => ⟨S512x64, .f32⟩
  | .hbm, ⟨64, _⟩ => ⟨S50000x1, .i32⟩
  | .hbm, ⟨65, _⟩ => ⟨S512x64, .f32⟩
  | .hbm, ⟨66, _⟩ => ⟨S_, .f32⟩
  | .hbm, ⟨67, _⟩ => ⟨S50000, .f32⟩
  | .hbm, ⟨68, _⟩ => ⟨S_, .f32⟩
  | .hbm, ⟨69, _⟩ => ⟨S512, .f32⟩
  | .hbm, ⟨70, _⟩ => ⟨S50000x1, .i32⟩
  | .hbm, ⟨71, _⟩ => ⟨S512, .f32⟩
  | .hbm, ⟨72, _⟩ => ⟨S_, .f32⟩
  | .hbm, ⟨73, _⟩ => ⟨S512, .f32⟩
  | .hbm, ⟨74, _⟩ => ⟨S512, .f32⟩
  | .hbm, ⟨75, _⟩ => ⟨S512x1, .f32⟩
  | .hbm, ⟨76, _⟩ => ⟨S512x64, .f32⟩
  | .hbm, ⟨77, _⟩ => ⟨S512x64, .f32⟩
  | .hbm, ⟨78, _⟩ => ⟨S1x64, .f32⟩
  | .hbm, ⟨79, _⟩ => ⟨S1x1, .f32⟩
  | .hbm, ⟨80, _⟩ => ⟨S512x1, .f32⟩
  | .local _ .vmem, ⟨0, _⟩ => ⟨S16000x128, .f32⟩
  | .local _ .vmem, ⟨1, _⟩ => ⟨S16000x128, .f32⟩
  | .local _ .vmem, ⟨2, _⟩ => ⟨S128x64, .f32⟩
  | .local _ .vmem, ⟨3, _⟩ => ⟨S16000x64, .f32⟩
  | .local _ .vmem, ⟨4, _⟩ => ⟨S16000x64, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S16000x64, .f32⟩
  | .local _ .vmem, ⟨13, _⟩ => ⟨S16000x64, .f32⟩
  | .local _ .vmem, ⟨14, _⟩ => ⟨S64x64, .f32⟩
  | .local _ .vmem, ⟨15, _⟩ => ⟨S16000x64, .f32⟩
  | .local _ .vmem, ⟨16, _⟩ => ⟨S16000x64, .f32⟩
  | .local _ .vmem, ⟨17, _⟩ => ⟨S10000x64, .f32⟩
  | .local _ .vmem, ⟨18, _⟩ => ⟨S10000x64, .f32⟩
  | .local _ .vmem, ⟨19, _⟩ => ⟨S64x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S16000x64, .f32⟩
  | .local _ .vmem, ⟨25, _⟩ => ⟨S16000x64, .f32⟩
  | .local _ .vmem, ⟨26, _⟩ => ⟨S64x64, .f32⟩
  | .local _ .vmem, ⟨27, _⟩ => ⟨S16000x64, .f32⟩
  | .local _ .vmem, ⟨28, _⟩ => ⟨S16000x64, .f32⟩
  | .local _ .vmem, ⟨29, _⟩ => ⟨S10000x64, .f32⟩
  | .local _ .vmem, ⟨30, _⟩ => ⟨S10000x64, .f32⟩
  | .local _ .vmem, ⟨31, _⟩ => ⟨S64x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S512x64, .f32⟩
  | .local _ .vmem, ⟨37, _⟩ => ⟨S64x64, .f32⟩
  | .local _ .vmem, ⟨38, _⟩ => ⟨S1x64, .f32⟩
  | .local _ .vmem, ⟨39, _⟩ => ⟨S64x1, .f32⟩
  | .local _ .vmem, ⟨40, _⟩ => ⟨S1x1, .f32⟩
  | .local _ .vmem, ⟨41, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc6_stg4_0 : Ref sig .tc := ⟨.vmem, 40, rfl⟩
abbrev cc6_stg5_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc5_sem3_0 : DmaSem sig := 34
abbrev cc5_sem3_1 : DmaSem sig := 35
abbrev cc6_sem0_0 : DmaSem sig := 36
abbrev cc6_sem1_0 : DmaSem sig := 37
abbrev cc6_sem2_0 : DmaSem sig := 38
abbrev cc6_sem3_0 : DmaSem sig := 39
abbrev cc6_sem4_0 : DmaSem sig := 40
abbrev cc6_sem5_0 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S16000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S16000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S16000x64_S16000x64_0_0 : ∀ a, (![0, 0] : Fin 2 → Nat) a + S16000x64.size a ≤ S16000x64.size a
  h_S16000x64 : 0 < S16000x64.numel
  bcast_S_S50000x64 : S_.BroadcastsInDim S50000x64 (![] : Fin 0 → Fin S50000x64.rank)
  inb_S10000x128_S10000x128_0_0 : ∀ a, (![0, 0] : Fin 2 → Nat) a + S10000x128.size a ≤ S10000x128.size a
  h_S10000x128 : 0 < S10000x128.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S16000x64_S16000x64 : S16000x64.ShapeCasts S16000x64
  inb_S64x64_S64x64_0_0 : ∀ a, (![0, 0] : Fin 2 → Nat) a + S64x64.size a ≤ S64x64.size a
  h_S64x64 : 0 < S64x64.numel
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S64_S1x64 : S64.ShapeCasts S1x64
  shapeCasts_S1_S1x1 : S1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S50000x128_S800000x1_S800000x128_1_0_n_n_0_1_1128_wf : GatherDims.WF S50000x128 S800000x1 S800000x128 [1] [0] [] [0] [] 1 ![1, 128]
  dot_S16000x128_S128x64_S16000x64_1_0_0_1_n_n_wf : DotDims.WF S16000x128 S128x64 S16000x64 [1] [0] [0] [1] [] []
  scatter_S50000x64_S800000x1_S800000x64_1_0_0_1_wf : ScatterDims.WF S50000x64 S800000x1 S800000x64 [1] [0] [0] 1
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  dot_S16000x64_S64x64_S16000x64_1_0_0_1_n_n_wf : DotDims.WF S16000x64 S64x64 S16000x64 [1] [0] [0] [1] [] []
  dot_S10000x64_S64x64_S10000x64_1_0_0_1_n_n_wf : DotDims.WF S10000x64 S64x64 S10000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x64_S512x64_1_0_0_1_n_n_wf : DotDims.WF S512x64 S64x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S800000x128.size a
  hwx0_0 : ∀ i : grid0.Coords, EltTy.bits .f32 = 32 ∨ (Rect.block (s := S800000x128) S16000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x64.size a ≤ S800000x64.size a
  hwx0_2 : ∀ i : grid0.Coords, EltTy.bits .f32 = 32 ∨ (Rect.block (s := S800000x64) S16000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x64.size a ≤ S800000x64.size a
  hwx2_0 : ∀ i : grid2.Coords, EltTy.bits .f32 = 32 ∨ (Rect.block (s := S800000x64) S16000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16000x64.size a ≤ S800000x64.size a
  hwx2_2 : ∀ i : grid2.Coords, EltTy.bits .f32 = 32 ∨ (Rect.block (s := S800000x64) S16000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S50000x64.size a
  hwx3_3 : ∀ i : grid3.Coords, EltTy.bits .f32 = 32 ∨ (Rect.block (s := S50000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S16000x64.size a ≤ S800000x64.size a
  hwx4_0 : ∀ i : grid4.Coords, EltTy.bits .f32 = 32 ∨ (Rect.block (s := S800000x64) S16000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S16000x64.size a ≤ S800000x64.size a
  hwx4_2 : ∀ i : grid4.Coords, EltTy.bits .f32 = 32 ∨ (Rect.block (s := S800000x64) S16000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S50000x64.size a
  hwx5_2 : ∀ i : grid5.Coords, EltTy.bits .f32 = 32 ∨ (Rect.block (s := S50000x64) S10000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S50000x64.size a
  hwx5_3 : ∀ i : grid5.Coords, EltTy.bits .f32 = 32 ∨ (Rect.block (s := S50000x64) S10000x64.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x64.size a ≤ S512x64.size a
  hwx6_0 : ∀ i : grid6.Coords, EltTy.bits .f32 = 32 ∨ (Rect.block (s := S512x64) S512x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x1.size a ≤ S512x1.size a
  hwx6_5 : ∀ i : grid6.Coords, EltTy.bits .f32 = 32 ∨ (Rect.block (s := S512x1) S512x1.size (cc6_transform_5 i) (hinb6_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_v10) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S16000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S16000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S16000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v15) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v26) S10000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v27) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v34) S16000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v35) S16000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v27) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v38) S10000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v39) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v51) S512x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v52) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v53) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v54) S512x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x128 : Shape := ⟨2, ![800000, 128]⟩
abbrev S800000x64 : Shape := ⟨2, ![800000, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S1x64 : Shape := ⟨2, ![1, 64]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S128x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x64, .f32⟩
  | .hbm, ⟨28, _⟩ => ⟨S_, .f32⟩
  | .hbm, ⟨29, _⟩ => ⟨S50000x64, .f32⟩
  | .hbm, ⟨30, _⟩ => ⟨S800000x1, .i32⟩
  | .hbm, ⟨31, _⟩ => ⟨S50000x64, .f32⟩
  | .hbm, ⟨32, _⟩ => ⟨S50000x64, .f32⟩
  | .hbm, ⟨33, _⟩ => ⟨S_, .f32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S50000x64, .f32⟩
  | .hbm, ⟨52, _⟩ => ⟨S_, .f32⟩
  | .hbm, ⟨53, _⟩ => ⟨S50000x64, .f32⟩
  | .hbm, ⟨54, _⟩ => ⟨S50000x64, .f32⟩
  | .hbm, ⟨55, _⟩ => ⟨S50000x64, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .f32⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S50000x64, .f32⟩
  | .hbm, ⟨71, _⟩ => ⟨S_, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S512x64, .f32⟩
  | .hbm, ⟨76, _⟩ => ⟨S50000x1, .i32⟩
  | .hbm, ⟨77, _⟩ => ⟨S512x64, .f32⟩
  | .hbm, ⟨78, _⟩ => ⟨S_, .f32⟩
  | .hbm, ⟨79, _⟩ => ⟨S50000, .f32⟩
  | .hbm, ⟨80, _⟩ => ⟨S_, .f32⟩
  | .hbm, ⟨81, _⟩ => ⟨S512, .f32⟩
  | .hbm, ⟨82, _⟩ => ⟨S50000x1, .i32⟩
  | .hbm, ⟨83, _⟩ => ⟨S512, .f32⟩
  | .hbm, ⟨84, _⟩ => ⟨S_, .f32⟩
  | .hbm, ⟨85, _⟩ => ⟨S512, .f32⟩
  | .hbm, ⟨86, _⟩ => ⟨S512, .f32⟩
  | .hbm, ⟨87, _⟩ => ⟨S512x1, .f32⟩
  | .hbm, ⟨88, _⟩ => ⟨S512x64, .f32⟩
  | .hbm, ⟨89, _⟩ => ⟨S512x64, .f32⟩
  | .hbm, ⟨90, _⟩ => ⟨S512x64, .f32⟩
  | .hbm, ⟨91, _⟩ => ⟨S1x64, .f32⟩
  | .hbm, ⟨92, _⟩ => ⟨S512x64, .f32⟩
  | .hbm, ⟨93, _⟩ => ⟨S512x64, .f32⟩
  | .hbm, ⟨94, _⟩ => ⟨S_, .f32⟩
  | .hbm, ⟨95, _⟩ => ⟨S512x64, .f32⟩
  | .hbm, ⟨96, _⟩ => ⟨S512x64, .f32⟩
  | .hbm, ⟨97, _⟩ => ⟨S512x1, .f32⟩
  | .hbm, ⟨98, _⟩ => ⟨S1x1, .f32⟩
  | .hbm, ⟨99, _⟩ => ⟨S512x1, .f32⟩
  | .hbm, ⟨100, _⟩ => ⟨S512x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call0_cst : Ref sig .tc := ⟨.hbm, 33, rfl⟩
abbrev main_call0_v0 : Ref sig .tc := ⟨.hbm, 34, rfl⟩
abbrev main_v17 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call1_cst : Ref sig .tc := ⟨.hbm, 52, rfl⟩
abbrev main_call1_v0 : Ref sig .tc := ⟨.hbm, 53, rfl⟩
abbrev main_v31 : Ref sig .tc := ⟨.hbm, 54, rfl⟩
abbrev main_v32 : Ref sig .tc := ⟨.hbm, 55, rfl⟩
abbrev main_c_4 : Ref sig .tc := ⟨.hbm, 56, rfl⟩
abbrev main_v33 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call2_cst : Ref sig .tc := ⟨.hbm, 71, rfl⟩
abbrev main_call2_v0 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_cst_9 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call3_cst : Ref sig .tc := ⟨.hbm, 94, rfl⟩
abbrev main_call3_v0 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S50000x128_S128x64_S50000x64_1_0_0_1_n_n_wf : DotDims.WF S50000x128 S128x64 S50000x64 [1] [0] [0] [1] [] []
  gather_S50000x128_S800000x1_S800000x128_1_0_n_n_0_1_1128_wf : GatherDims.WF S50000x128 S800000x1 S800000x128 [1] [0] [] [0] [] 1 ![1, 128]
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x64_S512x64_1_0_0_1_n_n_wf : DotDims.WF S512x64 S64x64 S512x64 [1] [0] [0] [1] [] []
  dot_S512x64_S64x1_S512x1_1_0_0_1_n_n_wf : DotDims.WF S512x64 S64x1 S512x1 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.Stretch.lean ====
/-
  The host operations between the kernel regions, read as the reference's stages. Each stretch of the kernel's program
  applies the same operations as a stretch of the reference: the edge list split into sources and targets, a negative
  source index counted from the end, the gather of the source rows, the sum of the message rows into their target rows,
  the mean over each graph's nodes. So, from boundary contents that hold the reference's stages at the buffers a stretch
  reads, the buffer it hands to the next region holds the reference's next stage.
-/
import proofs.«152193_j37177236914939_1_alg».proof.Proof.KernelIdealLaunchP
import proofs.«152193_j37177236914939_1_alg».proof.Proof.Gen.ReferenceIdeal.Read
import Idealize.ShloMosaic.Lib.StableHlo.Run

noncomputable section

namespace Cert.KernelIdeal.Stretch

open Cert.KernelIdeal Cert.KernelIdeal.Gen Cert.KernelIdeal.GenP
open Idealize.ShloMosaic Idealize.ShloMosaic.TcCoe Idealize.SL.Sem Idealize.ShloMosaic.StableHlo
open Cert.ReferenceIdeal.Read

variable {F : FTy → Type} [FloatOps F]
variable (Wv : Valuation τ sig (Elt F))

/-- The sources of the edges, as a vector. -/
theorem src (x1) (h : Wv (Proc.devRef .tc main_arg1) = x1) :
    StableHlo.after hostOps0 Wv (Proc.devRef .tc main_v1) = val_main_v1 (F := F) x1 := by
  subst h; after_results; rfl

/-- The targets of the edges, as a vector. -/
theorem dst (x1) (h : Wv (Proc.devRef .tc main_arg1) = x1) :
    StableHlo.after hostOps0 Wv (Proc.devRef .tc main_v3) = val_main_v3 (F := F) x1 := by
  subst h; after_results; rfl

/-- The source rows of the node features, one per edge. -/
theorem gather1 (x0 x1) (h0 : Wv (Proc.devRef .tc main_arg0) = x0) (h1 : Wv (Proc.devRef .tc main_arg1) = x1) :
    StableHlo.after hostOps0 Wv (Proc.devRef .tc main_v10) = val_main_v11 (F := F) x0 x1 := by
  subst h0 h1; after_results; rfl

/-- The first layer's message rows summed into their target rows. -/
theorem scatter1 (x0 x1 x4) (h3 : Wv (Proc.devRef .tc main_v3) = val_main_v3 (F := F) x1)
    (h11 : Wv (Proc.devRef .tc main_v11) = val_main_v12 (F := F) x0 x1 x4) :
    StableHlo.after hostOps1 Wv (Proc.devRef .tc main_v14) = val_main_v15 (F := F) x0 x1 x4 := by
  after_results; rw [h3, h11]; rfl

/-- The source rows of the first layer's output, one per edge. -/
theorem gather2 (x0 x1 x3 x4) (h1 : Wv (Proc.devRef .tc main_v1) = val_main_v1 (F := F) x1)
    (h15 : Wv (Proc.devRef .tc main_v15) = val_main_v17 (F := F) x0 x1 x3 x4) :
    StableHlo.after hostOps2 Wv (Proc.devRef .tc main_v22) = val_main_v25 (F := F) x0 x1 x3 x4 := by
  after_results; rw [h1, h15]; rfl

/-- The second layer's message rows summed into their target rows. -/
theorem scatter2 (x0 x1 x3 x4 x6) (h3 : Wv (Proc.devRef .tc main_v3) = val_main_v3 (F := F) x1)
    (h23 : Wv (Proc.devRef .tc main_v23) = val_main_v26 (F := F) x0 x1 x3 x4 x6) :
    StableHlo.after hostOps3 Wv (Proc.devRef .tc main_v26) = val_main_v29 (F := F) x0 x1 x3 x4 x6 := by
  after_results; rw [h3, h23]; rfl

/-- The source rows of the second layer's output, one per edge. -/
theorem gather3 (x0 x1 x3 x4 x5 x6) (h1 : Wv (Proc.devRef .tc main_v1) = val_main_v1 (F := F) x1)
    (h27 : Wv (Proc.devRef .tc main_v27) = val_main_v31 (F := F) x0 x1 x3 x4 x5 x6) :
    StableHlo.after hostOps4 Wv (Proc.devRef .tc main_v34) = val_main_v39 (F := F) x0 x1 x3 x4 x5 x6 := by
  after_results; rw [h1, h27]; rfl

/-- The third layer's message rows summed into their target rows. -/
theorem scatter3 (x0 x1 x3 x4 x5 x6 x8) (h3 : Wv (Proc.devRef .tc main_v3) = val_main_v3 (F := F) x1)
    (h35 : Wv (Proc.devRef .tc main_v35) = val_main_v40 (F := F) x0 x1 x3 x4 x5 x6 x8) :
    StableHlo.after hostOps5 Wv (Proc.devRef .tc main_v38) = val_main_v43 (F := F) x0 x1 x3 x4 x5 x6 x8 := by
  after_results; rw [h3, h35]; rfl

/-- The mean of the third layer's rows over each graph's nodes (a graph with no node divides by one). -/
theorem pool (x0 x1 x2 x3 x4 x5 x6 x7 x8) (h2 : Wv (Proc.devRef .tc main_arg2) = x2)
    (h39 : Wv (Proc.devRef .tc main_v39) = val_main_v45 (F := F) x0 x1 x3 x4 x5 x6 x7 x8) :
    StableHlo.after hostOps6 Wv (Proc.devRef .tc main_v51) = val_main_v57 (F := F) x0 x1 x2 x3 x4 x5 x6 x7 x8 := by
  subst h2; after_results; rw [h39]; rfl

/-- The first bias laid out as one row. -/
theorem bias1 (x10) (h : Wv (Proc.devRef .tc main_arg10) = x10) :
    StableHlo.after hostOps6 Wv (Proc.devRef .tc main_v52) = shapeCast S1x64 x10 shapeCasts_S64_S1x64 := by
  subst h; after_results; rfl

/-- The second bias laid out as a one-by-one matrix. -/
theorem bias2 (x12) (h : Wv (Proc.devRef .tc main_arg12) = x12) :
    StableHlo.after hostOps6 Wv (Proc.devRef .tc main_v53) = shapeCast S1x1 x12 shapeCasts_S1_S1x1 := by
  subst h; after_results; rfl

end Cert.KernelIdeal.Stretch

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.Msg0.lean ====
/-
  The first message product. The edge rows gathered from the node features, an 800000 × 128 matrix, are multiplied by a
  128 × 64 weight matrix in 50 row blocks of 16000 rows; block t of the result is written back at grid point t. Over the
  extended reals a change of float format is the identity and a product accumulated into zero is the plain product, so
  element (e, n) of block t is the sum over k of row 16000·t + e of the gathered matrix times column n of the weights:
  element (16000·t + e, n) of the whole product. The blocks tile the rows, so the array the region leaves is the whole
  product of the two arrays it found.
-/
import proofs.«152193_j37177236914939_1_alg».proof.Proof.KernelIdealFrameP
import proofs.«152193_j37177236914939_1_alg».proof.Proof.LibPlainMatmul
import Idealize.ShloMosaic.Lib.Pipeline.Value
import Idealize.ShloMosaic.Lib.ValueIdx

set_option maxRecDepth 16384

noncomputable section

namespace Cert.KernelIdeal.Msg0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-- The whole product: rows of the gathered matrix against the weight matrix. -/
def prod (X : FVec Ideal S800000x128 .f32) (W : FVec Ideal S128x64 .f32) : FVec Ideal S800000x64 .f32 :=
  Host.dotGeneral (DotDims.plain 800000 128 64) none X W

theorem off0 : (![0, 0] : Fin 2 → Nat) = fun _ => 0 := funext fun a => by fin_cases a <;> rfl

/-- One block's stored value at (e, n): the sum over k of the block's row e times the weights' column n. -/
theorem block_apply (x : Vec Ideal S16000x128 .f32) (w : Vec Ideal S128x64 .f32) (e : Fin 16000) (n : Fin 64) :
    k0_pay1 x w (ix2 e n) = ∑ k : Fin 128, x (ix2 e k) * w (ix2 k n) := by
  unfold k0_pay1
  rw [shapeCast_self]
  exact Cert.LibPlainMatmul.matmul_plain_apply none x w e n

/-- The printed index maps over the grid: the row block is the point's number, the columns are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt50 (t : Fin cfg0.N) : t.val < 50 :=
  Nat.lt_of_lt_of_eq (show t.val < grid0.N from t.isLt) N_0

variable (V : (c : Dev nD) → (b : Ref sig .tc) → Buf (Elt Ideal) ((c : Thread nD τ).loc b))

/-- The gathered edge rows as the region finds them. -/
abbrev rows (c : Dev nD) : FVec Ideal S800000x128 .f32 := V c main_v10
/-- The weight matrix as the region finds it. -/
abbrev wts (c : Dev nD) : FVec Ideal S128x64 .f32 := V c main_arg4

/-- What point t writes back is block t of the whole product of the arrays the region found. -/
theorem flushed_eq (c : Dev nD) (t : Fin cfg0.N) :
    (dat0 V c).flushed 2 t = ((cfg0.win 2).blk t).view.read (Elt Ideal) (prod (rows V c) (wts V c)) := by
  show (cfg0.win 2).cut (grid0.coords t) ((dat0 V c).after 2 t) = _
  rw [after0_2]
  unfold out0_2
  rw [View.canon_unit_zero off0]
  simp only [View.ld_unit_zero (S := S16000x128) off0, View.ld_unit_zero (S := S128x64) off0]
  obtain ⟨e0, e1, e2, e3, e4, e5⟩ := idx_facts t
  have ht := lt50 t
  funext j
  obtain ⟨e, n, rfl⟩ : ∃ (e : Fin 16000) (n : Fin 64), j = ix2 e n := ⟨j 0, j 1, eq_ix2 j⟩
  have hr : t.val * 16000 + e.val < 800000 := by have := e.isLt; omega
  have h2 : ((cfg0.win 2).blk t).view.emb (ix2 e n) = (ix2 (⟨t.val * 16000 + e.val, hr⟩ : Fin 800000) n : S800000x64.Idx) := by
    funext a; apply Fin.ext
    match a with
    | ⟨0, _⟩ => show win0_2.index t (0 : Fin 2) * 16000 + 1 * e.val = t.val * 16000 + e.val; omega
    | ⟨1, _⟩ => show win0_2.index t (1 : Fin 2) * 64 + 1 * n.val = n.val; omega
  have h0 : ∀ k : Fin 128, ((cfg0.win 0).blk t).view.emb (ix2 e k) = (ix2 (⟨t.val * 16000 + e.val, hr⟩ : Fin 800000) k : S800000x128.Idx) := fun k => by
    funext a; apply Fin.ext
    match a with
    | ⟨0, _⟩ => show win0_0.index t (0 : Fin 2) * 16000 + 1 * e.val = t.val * 16000 + e.val; omega
    | ⟨1, _⟩ => show win0_0.index t (1 : Fin 2) * 128 + 1 * k.val = k.val; omega
  have h1 : ∀ k : Fin 128, ((cfg0.win 1).blk t).view.emb (ix2 k n) = (ix2 k n : S128x64.Idx) := fun k => by
    funext a; apply Fin.ext
    match a with
    | ⟨0, _⟩ => show win0_1.index t (0 : Fin 2) * 128 + 1 * k.val = k.val; omega
    | ⟨1, _⟩ => show win0_1.index t (1 : Fin 2) * 64 + 1 * n.val = n.val; omega
  refine (block_apply (iblk0 V c 0 t) (iblk0 V c 1 t) e n).trans ?_
  show _ = prod (rows V c) (wts V c) (((cfg0.win 2).blk t).view.emb (ix2 e n))
  rw [h2]
  unfold prod
  rw [Cert.LibPlainMatmul.dotGeneral_plain_apply]
  refine Finset.sum_congr rfl fun k _ => ?_
  have ea : iblk0 V c 0 t (ix2 e k) = rows V c (ix2 (⟨t.val * 16000 + e.val, hr⟩ : Fin 800000) k) := by
    show rows V c (((cfg0.win 0).blk t).view.emb (ix2 e k)) = _
    rw [h0 k]
  have eb : iblk0 V c 1 t (ix2 k n) = wts V c (ix2 k n) := by
    show wts V c (((cfg0.win 1).blk t).view.emb (ix2 k n)) = _
    rw [h1 k]
  exact congrArg₂ (· * ·) ea eb

/-- An index of the array is in point t's block iff each coordinate is in the block's range on its axis. -/
theorem mem_blk (t : Fin cfg0.N) (i : S800000x64.Idx) :
    i ∈ ((cfg0.win 2).blk t).view.set ↔ ∀ a : Fin 2, win0_2.index t a * S16000x64.size a ≤ (i a).val ∧ (i a).val < win0_2.index t a * S16000x64.size a + S16000x64.size a := by
  show i ∈ ((View.whole main_v11).slice (win0_2.rect t)).set ↔ _
  rw [View.set_slice_whole, Rect.mem_set_unit]
  exact Iff.rfl

/-- Every row lies in the block of the point numbered by its quotient by 16000. -/
theorem cover (i : S800000x64.Idx) : ∃ t : Fin cfg0.N, (cfg0.win 2).flush t = true ∧ i ∈ ((cfg0.win 2).blk t).view.set := by
  have hi0 : (i 0).val < 800000 := (i 0).isLt
  have hi1 : (i 1).val < 64 := (i 1).isLt
  have hN : (i 0).val / 16000 < cfg0.N := by rw [show cfg0.N = 50 from N_0]; omega
  obtain ⟨e0, e1, e2, e3, e4, e5⟩ := idx_facts ⟨(i 0).val / 16000, hN⟩
  refine ⟨⟨(i 0).val / 16000, hN⟩, flush0_2 _, ?_⟩
  rw [mem_blk]
  intro a
  match a with
  | ⟨0, _⟩ =>
    show win0_2.index ⟨(i 0).val / 16000, hN⟩ (0 : Fin 2) * 16000 ≤ (i 0).val ∧ (i 0).val < win0_2.index ⟨(i 0).val / 16000, hN⟩ (0 : Fin 2) * 16000 + 16000
    rw [e4]; show (i 0).val / 16000 * 16000 ≤ (i 0).val ∧ (i 0).val < (i 0).val / 16000 * 16000 + 16000; omega
  | ⟨1, _⟩ =>
    show win0_2.index ⟨(i 0).val / 16000, hN⟩ (1 : Fin 2) * 64 ≤ (i 1).val ∧ (i 1).val < win0_2.index ⟨(i 0).val / 16000, hN⟩ (1 : Fin 2) * 64 + 64
    rw [e5]; omega

/-- The array the region leaves: the whole product of the two arrays it found. -/
theorem final (c : Dev nD) : (dat0 V c).arrAt 2 cfg0.N = prod (rows V c) (wts V c) :=
  (dat0 V c).arrAt_eq_of_cover 2 _ (fun t _ => flushed_eq V c t) cover

end Cert.KernelIdeal.Msg0

end
-- ==== Proof.Comb1.lean ====
/-
  The first layer's combine step. The node features, a 50000 × 128 matrix, are multiplied by a 128 × 64 weight matrix in
  5 row blocks of 10000 rows; to each block the same rows of the summed messages are added and the result is cut off below
  at zero; block t of the result is written back at grid point t. Over the extended reals a change of float format is
  the identity and a product accumulated into zero is the plain product, so element (e, n) of block t is the maximum of
  zero and the sum over k of row 10000·t + e of the features times column n of the weights plus the summed message at
  (10000·t + e, n): element (10000·t + e, n) of the layer applied to the whole arrays. The blocks tile the rows, so the
  array the region leaves is the layer of the three arrays it found.
-/
import proofs.«152193_j37177236914939_1_alg».proof.Proof.KernelIdealFrameP
import proofs.«152193_j37177236914939_1_alg».proof.Proof.LibPlainMatmul
import Idealize.ShloMosaic.Lib.Pipeline.Value
import Idealize.ShloMosaic.Lib.ValueIdx

set_option maxRecDepth 16384

noncomputable section

namespace Cert.KernelIdeal.Comb1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-- The layer on whole arrays: the features times the weights, plus the summed messages, cut off below at zero. -/
def layer (X : FVec Ideal S50000x128 .f32) (W : FVec Ideal S128x64 .f32) (Nb : FVec Ideal S50000x64 .f32) : FVec Ideal S50000x64 .f32 :=
  maximumf (addf (Host.dotGeneral (DotDims.plain 50000 128 64) none X W) Nb)
    (broadcastInDim S50000x64 ![] bcast_S_S50000x64 (constant S_ .f32 0x00000000#32))

theorem off0 : (![0, 0] : Fin 2 → Nat) = fun _ => 0 := funext fun a => by fin_cases a <;> rfl

/-- The layer at (r, n): the maximum of the row's product with the column, plus the message entry, and zero. -/
theorem layer_apply (X : FVec Ideal S50000x128 .f32) (W : FVec Ideal S128x64 .f32) (Nb : FVec Ideal S50000x64 .f32)
    (r : Fin 50000) (n : Fin 64) :
    layer X W Nb (ix2 r n) = max ((∑ k : Fin 128, X (ix2 r k) * W (ix2 k n)) + Nb (ix2 r n)) (Ideal.ofBits .f32 0x00000000#32) := by
  unfold layer
  rw [maximumf_apply, addf_apply, Cert.LibPlainMatmul.dotGeneral_plain_apply]
  refine congrArg (max _) ?_
  exact (broadcastInDim_apply ![] bcast_S_S50000x64 _ (ix2 r n) ix0 (fun a => a.elim0)).trans rfl

/-- One block's stored value at (e, n). -/
theorem block_apply (x : Vec Ideal S10000x128 .f32) (w : Vec Ideal S128x64 .f32) (nb : Vec Ideal S10000x64 .f32) (e : Fin 10000) (n : Fin 64) :
    k1_pay1 x w nb (ix2 e n) = max ((∑ k : Fin 128, x (ix2 e k) * w (ix2 k n)) + nb (ix2 e n)) (Ideal.ofBits .f32 0x00000000#32) := by
  unfold k1_pay1
  simp only [shapeCast_self]
  rw [maximumf_apply, addf_apply]
  refine congrArg₂ max (congrArg₂ (· + ·) ?_ rfl) rfl
  exact Cert.LibPlainMatmul.matmul_plain_apply none x w e n

/-- The printed index maps over the grid: the row block is the point's number, the columns are whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem lt5 (t : Fin cfg1.N) : t.val < 5 :=
  Nat.lt_of_lt_of_eq (show t.val < grid1.N from t.isLt) N_1

variable (V : (c : Dev nD) → (b : Ref sig .tc) → Buf (Elt Ideal) ((c : Thread nD τ).loc b))

/-- The node features as the region finds them. -/
abbrev feats (c : Dev nD) : FVec Ideal S50000x128 .f32 := V c main_arg0
/-- The weight matrix as the region finds it. -/
abbrev wts (c : Dev nD) : FVec Ideal S128x64 .f32 := V c main_arg3
/-- The summed messages as the region finds them. -/
abbrev msgs (c : Dev nD) : FVec Ideal S50000x64 .f32 := V c main_v14

/-- What point t writes back is block t of the layer of the arrays the region found. -/
theorem flushed_eq (c : Dev nD) (t : Fin cfg1.N) :
    (dat1 V c).flushed 3 t = ((cfg1.win 3).blk t).view.read (Elt Ideal) (layer (feats V c) (wts V c) (msgs V c)) := by
  show (cfg1.win 3).cut (grid1.coords t) ((dat1 V c).after 3 t) = _
  rw [after1_3]
  unfold out1_3
  rw [View.canon_unit_zero off0]
  simp only [View.ld_unit_zero (S := S10000x128) off0, View.ld_unit_zero (S := S128x64) off0, View.ld_unit_zero (S := S10000x64) off0]
  obtain ⟨e0, e1, e2, e3, e4, e5, e6, e7⟩ := idx_facts t
  have ht := lt5 t
  funext j
  obtain ⟨e, n, rfl⟩ : ∃ (e : Fin 10000) (n : Fin 64), j = ix2 e n := ⟨j 0, j 1, eq_ix2 j⟩
  have hr : t.val * 10000 + e.val < 50000 := by have := e.isLt; omega
  have h3 : ((cfg1.win 3).blk t).view.emb (ix2 e n) = (ix2 (⟨t.val * 10000 + e.val, hr⟩ : Fin 50000) n : S50000x64.Idx) := by
    funext a; apply Fin.ext
    match a with
    | ⟨0, _⟩ => show win1_3.index t (0 : Fin 2) * 10000 + 1 * e.val = t.val * 10000 + e.val; omega
    | ⟨1, _⟩ => show win1_3.index t (1 : Fin 2) * 64 + 1 * n.val = n.val; omega
  have h2 : ((cfg1.win 2).blk t).view.emb (ix2 e n) = (ix2 (⟨t.val * 10000 + e.val, hr⟩ : Fin 50000) n : S50000x64.Idx) := by
    funext a; apply Fin.ext
    match a with
    | ⟨0, _⟩ => show win1_2.index t (0 : Fin 2) * 10000 + 1 * e.val = t.val * 10000 + e.val; omega
    | ⟨1, _⟩ => show win1_2.index t (1 : Fin 2) * 64 + 1 * n.val = n.val; omega
  have h0 : ∀ k : Fin 128, ((cfg1.win 0).blk t).view.emb (ix2 e k) = (ix2 (⟨t.val * 10000 + e.val, hr⟩ : Fin 50000) k : S50000x128.Idx) := fun k => by
    funext a; apply Fin.ext
    match a with
    | ⟨0, _⟩ => show win1_0.index t (0 : Fin 2) * 10000 + 1 * e.val = t.val * 10000 + e.val; omega
    | ⟨1, _⟩ => show win1_0.index t (1 : Fin 2) * 128 + 1 * k.val = k.val; omega
  have h1 : ∀ k : Fin 128, ((cfg1.win 1).blk t).view.emb (ix2 k n) = (ix2 k n : S128x64.Idx) := fun k => by
    funext a; apply Fin.ext
    match a with
    | ⟨0, _⟩ => show win1_1.index t (0 : Fin 2) * 128 + 1 * k.val = k.val; omega
    | ⟨1, _⟩ => show win1_1.index t (1 : Fin 2) * 64 + 1 * n.val = n.val; omega
  refine (block_apply (iblk1 V c 0 t) (iblk1 V c 1 t) (iblk1 V c 2 t) e n).trans ?_
  show _ = layer (feats V c) (wts V c) (msgs V c) (((cfg1.win 3).blk t).view.emb (ix2 e n))
  rw [h3, layer_apply]
  have ec : iblk1 V c 2 t (ix2 e n) = msgs V c (ix2 (⟨t.val * 10000 + e.val, hr⟩ : Fin 50000) n) := by
    show msgs V c (((cfg1.win 2).blk t).view.emb (ix2 e n)) = _
    rw [h2]
  refine congrArg₂ max (congrArg₂ (· + ·) (Finset.sum_congr rfl fun k _ => ?_) ec) rfl
  have ea : iblk1 V c 0 t (ix2 e k) = feats V c (ix2 (⟨t.val * 10000 + e.val, hr⟩ : Fin 50000) k) := by
    show feats V c (((cfg1.win 0).blk t).view.emb (ix2 e k)) = _
    rw [h0 k]
  have eb : iblk1 V c 1 t (ix2 k n) = wts V c (ix2 k n) := by
    show wts V c (((cfg1.win 1).blk t).view.emb (ix2 k n)) = _
    rw [h1 k]
  exact congrArg₂ (· * ·) ea eb

/-- An index of the array is in point t's block iff each coordinate is in the block's range on its axis. -/
theorem mem_blk (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v15).slice (win1_3.rect t)).set ↔ _
  rw [View.set_slice_whole, Rect.mem_set_unit]
  exact Iff.rfl

/-- Every row lies in the block of the point numbered by its quotient by 10000. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : (i 0).val / 10000 < cfg1.N := by rw [show cfg1.N = 5 from N_1]; omega
  obtain ⟨e0, e1, e2, e3, e4, e5, e6, e7⟩ := idx_facts ⟨(i 0).val / 10000, hN⟩
  refine ⟨⟨(i 0).val / 10000, hN⟩, flush1_3 _, ?_⟩
  rw [mem_blk]
  intro a
  match a with
  | ⟨0, _⟩ =>
    show win1_3.index ⟨(i 0).val / 10000, hN⟩ (0 : Fin 2) * 10000 ≤ (i 0).val ∧ (i 0).val < win1_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, hN⟩ (1 : Fin 2) * 64 ≤ (i 1).val ∧ (i 1).val < win1_3.index ⟨(i 0).val / 10000, hN⟩ (1 : Fin 2) * 64 + 64
    rw [e7]; omega

/-- The array the region leaves: the layer of the three arrays it found. -/
theorem final (c : Dev nD) : (dat1 V c).arrAt 3 cfg1.N = layer (feats V c) (wts V c) (msgs V c) :=
  (dat1 V c).arrAt_eq_of_cover 3 _ (fun t _ => flushed_eq V c t) cover

end Cert.KernelIdeal.Comb1

end
-- ==== Proof.Cls6.lean ====
/-
  The classifier. One grid point; every window's block is its whole array, so what the point writes back is the kernel's
  expression of the five arrays the region found, and the array the region leaves is that expression: the graphs' mean
  rows times a weight matrix plus a bias row, cut off below at zero, times a second weight matrix plus a second bias.
-/
import proofs.«152193_j37177236914939_1_alg».proof.Proof.KernelIdealFrameP
import proofs.«152193_j37177236914939_1_alg».proof.Proof.Cls6Blocks
import Idealize.ShloMosaic.Lib.Pipeline.Value
import Idealize.ShloMosaic.Lib.ValueIdx

set_option maxRecDepth 16384

noncomputable section

namespace Cert.KernelIdeal.Cls6

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

theorem off0 : (![0, 0] : Fin 2 → Nat) = fun _ => 0 := funext fun a => by fin_cases a <;> rfl

/-- The classifier's score of every graph: the kernel's expression of five whole arrays. -/
def score (P : FVec Ideal S512x64 .f32) (W1 : FVec Ideal S64x64 .f32) (B1 : FVec Ideal S1x64 .f32) (W2 : FVec Ideal S64x1 .f32)
    (B2 : FVec Ideal S1x1 .f32) : FVec Ideal S512x1 .f32 :=
  k6_pay1 P W1 B1 W2 B2

variable (V : (c : Dev nD) → (b : Ref sig .tc) → Buf (Elt Ideal) ((c : Thread nD τ).loc b))

/-- What the one point writes back is the kernel's expression of the five arrays, read through the whole output block. -/
theorem flushed_eq (c : Dev nD) (t : Fin cfg6.N) :
    (dat6 V c).flushed 5 t = ((cfg6.win 5).blk t).view.read (Elt Ideal) (score (pooled V c) (w1 V c) (b1 V c) (w2 V c) (b2 V c)) := by
  show (cfg6.win 5).cut (grid6.coords t) ((dat6 V c).after 5 t) = _
  rw [after6_5]
  unfold out6_5
  rw [View.canon_unit_zero off0]
  simp only [View.ld_unit_zero (S := S512x64) off0, View.ld_unit_zero (S := S64x64) off0, View.ld_unit_zero (S := S1x64) off0,
    View.ld_unit_zero (S := S64x1) off0, View.ld_unit_zero (S := S1x1) off0]
  rw [blk0 V c t, blk1 V c t, blk2 V c t, blk3 V c t, blk4 V c t]
  obtain ⟨e0, e1, e2, e3, e4, e5, e6, e7, e8, e9, e10, e11⟩ := idx_facts t
  funext j
  show score (pooled V c) (w1 V c) (b1 V c) (w2 V c) (b2 V c) j
    = score (pooled V c) (w1 V c) (b1 V c) (w2 V c) (b2 V c) (((cfg6.win 5).blk t).view.emb j)
  refine congrArg (score (pooled V c) (w1 V c) (b1 V c) (w2 V c) (b2 V c)) (funext fun a => Fin.ext ?_)
  match a with
  | ⟨0, _⟩ => show (j 0).val = win6_5.index t (0 : Fin 2) * 512 + 1 * (j 0).val; omega
  | ⟨1, _⟩ => show (j 1).val = win6_5.index t (1 : Fin 2) * 1 + 1 * (j 1).val; omega

/-- An index of the array is in the point's block iff each coordinate is in the block's range on its axis. -/
theorem mem_blk (t : Fin cfg6.N) (i : S512x1.Idx) :
    i ∈ ((cfg6.win 5).blk t).view.set ↔ ∀ a : Fin 2, win6_5.index t a * S512x1.size a ≤ (i a).val ∧ (i a).val < win6_5.index t a * S512x1.size a + S512x1.size a := by
  show i ∈ ((View.whole main_v54).slice (win6_5.rect t)).set ↔ _
  rw [View.set_slice_whole, Rect.mem_set_unit]
  exact Iff.rfl

/-- The one block is the whole array. -/
theorem cover (i : S512x1.Idx) : ∃ t : Fin cfg6.N, (cfg6.win 5).flush t = true ∧ i ∈ ((cfg6.win 5).blk t).view.set := by
  have hi0 : (i 0).val < 512 := (i 0).isLt
  have hi1 : (i 1).val < 1 := (i 1).isLt
  obtain ⟨e0, e1, e2, e3, e4, e5, e6, e7, e8, e9, e10, e11⟩ := idx_facts t6_0
  refine ⟨t6_0, flush6_5 _, ?_⟩
  rw [mem_blk]
  intro a
  match a with
  | ⟨0, _⟩ =>
    show win6_5.index t6_0 (0 : Fin 2) * 512 ≤ (i 0).val ∧ (i 0).val < win6_5.index t6_0 (0 : Fin 2) * 512 + 512
    rw [e10]; omega
  | ⟨1, _⟩ =>
    show win6_5.index t6_0 (1 : Fin 2) * 1 ≤ (i 1).val ∧ (i 1).val < win6_5.index t6_0 (1 : Fin 2) * 1 + 1
    rw [e11]; omega

/-- The array the region leaves: the kernel's expression of the five arrays it found. -/
theorem final (c : Dev nD) : (dat6 V c).arrAt 5 cfg6.N = score (pooled V c) (w1 V c) (b1 V c) (w2 V c) (b2 V c) :=
  (dat6 V c).arrAt_eq_of_cover 5 _ (fun t _ => flushed_eq V c t) cover

end Cert.KernelIdeal.Cls6

end
-- ==== Proof.ClsLaw.lean ====
/-
  The classifier's two spellings. The kernel multiplies the pooled rows by the first weight matrix into a zero accumulator,
  adds the first bias kept as a one-row matrix and repeated down the rows, cuts off below at zero, multiplies by the second
  weight matrix into a zero accumulator and adds the second bias kept as a one-by-one matrix and repeated down the rows. The
  reference multiplies on the host, and repeats each bias vector first into one row and then down the rows. Over the extended
  reals a product accumulated into zero is the host's product and a change of float format is the identity; a bias entry read
  at (r, j) is entry j of the bias vector in both; the zero the kernel splats is the zero the reference broadcasts.
-/
import proofs.«152193_j37177236914939_1_alg».proof.Proof.Gen.KernelIdeal.Skeleton
import proofs.«152193_j37177236914939_1_alg».proof.Proof.Gen.ReferenceIdeal.Read
import Idealize.ShloMosaic.Lib.KernelVsHost
import Idealize.ShloMosaic.Lib.Pipeline.Value
import Idealize.ShloMosaic.Lib.ValueIdx

noncomputable section

namespace Cert.KernelIdeal.ClsLaw

open Cert.KernelIdeal Cert.KernelIdeal.Gen
open Idealize.ShloMosaic Idealize.ShloMosaic.TcCoe Idealize.ShloMosaic.ValueIdx
open Cert.ReferenceIdeal.Read

/-- The first bias repeated down the rows: entry (r, j) is entry j of the bias vector, in both spellings. -/
theorem bias_rows (x10 : FVec Ideal S64 .f32) :
    broadcastTo S512x64 (shapeCast S1x64 x10 shapeCasts_S64_S1x64) broadcasts_S1x64_S512x64 = val_main_v60 (F := Ideal) x10 := by
  funext i
  rw [val_main_v60_apply, val_main_v59_apply]
  refine (broadcastTo_apply _ broadcasts_S1x64_S512x64 i (ix2 (0 : Fin 1) (i 1 : Fin 64)) ?_).trans ?_
  · intro a
    match a with
    | ⟨0, _⟩ => rfl
    | ⟨1, _⟩ => show (i 1).val = if (64 : Nat) = 1 then 0 else (i 1).val; rw [if_neg (by decide)]
  · refine (shapeCast_apply x10 shapeCasts_S64_S1x64 (ix2 (0 : Fin 1) (i 1 : Fin 64)) (ix1 (i 1 : Fin 64)) ?_).trans ?_
    · rw [Shape.rowMajor_val_two, Shape.rowMajor_val_one]; show (i 1).val = 0 * 64 + (i 1).val; omega
    · exact congrArg x10 (funext fun a => Fin.ext (by match a with | ⟨0, _⟩ => rfl))

/-- The second bias repeated down the rows: every entry is the one entry of the bias vector, in both spellings. -/
theorem bias_one (x12 : FVec Ideal S1 .f32) :
    broadcastTo S512x1 (shapeCast S1x1 x12 shapeCasts_S1_S1x1) broadcasts_S1x1_S512x1 = val_main_v65 (F := Ideal) x12 := by
  funext i
  rw [val_main_v65_apply, val_main_v64_apply]
  refine (broadcastTo_apply _ broadcasts_S1x1_S512x1 i (ix2 (0 : Fin 1) (0 : Fin 1)) ?_).trans ?_
  · intro a
    match a with
    | ⟨0, _⟩ => rfl
    | ⟨1, _⟩ => rfl
  · refine (shapeCast_apply x12 shapeCasts_S1_S1x1 (ix2 (0 : Fin 1) (0 : Fin 1)) (ix1 (0 : Fin 1)) ?_).trans ?_
    · rw [Shape.rowMajor_val_two, Shape.rowMajor_val_one]; rfl
    · exact congrArg x12 (funext fun a => Fin.ext (by match a with | ⟨0, _⟩ => rfl))

/-- The zero the kernel splats over the hidden rows is the zero the reference broadcasts. -/
theorem zero_rows : broadcast S512x64 (Scalar.ofBits (F := Ideal) .f32 0x00000000#32) = val_main_call3_v0 (F := Ideal) := by
  funext i
  rw [val_main_call3_v0_apply]
  rfl

/-- The kernel's expression, on the biases laid out as the program lays them out, is the reference's last stages on the same
    pooled rows. -/
theorem score_eq (P : FVec Ideal S512x64 .f32) (x9 : FVec Ideal S64x64 .f32) (x10 : FVec Ideal S64 .f32)
    (x11 : FVec Ideal S64x1 .f32) (x12 : FVec Ideal S1 .f32) :
    k6_pay1 P x9 (shapeCast S1x64 x10 shapeCasts_S64_S1x64) x11 (shapeCast S1x1 x12 shapeCasts_S1_S1x1)
      = addf (Host.dotGeneral Cert.ReferenceIdeal.dot_S512x64_S64x1_S512x1_1_0_0_1_n_n none
          (maximumf (addf (Host.dotGeneral Cert.ReferenceIdeal.dot_S512x64_S64x64_S512x64_1_0_0_1_n_n none P x9)
            (val_main_v60 (F := Ideal) x10)) (val_main_call3_v0 (F := Ideal))) x11)
        (val_main_v65 (F := Ideal) x12) := by
  unfold k6_pay1
  simp only [shapeCast_self, matmul_zero_eq_dotGeneral, bias_rows, bias_one, zero_rows]
  rfl

end Cert.KernelIdeal.ClsLaw

end
-- ==== Proof.Chain.lean ====
/-
  The kernel's result as the reference's function of the arguments. The program is seven kernel regions among stretches of
  host operations, and its result buffer ends at the contents of the last boundary. Walking the boundaries in order: each
  stretch computes the reference's next stage from buffers that hold earlier stages (the edge sources and targets made in the
  first stretch and kept since, a layer's output kept until it is gathered and multiplied again, the arguments kept from the
  launch), and each region leaves the whole product, layer or classifier score of the arrays it found, which is the
  reference's stage of the same name. So the last boundary holds, at the result buffer, the reference's last stage of the
  thirteen argument arrays.
-/
import proofs.«152193_j37177236914939_1_alg».proof.Proof.Keep
import proofs.«152193_j37177236914939_1_alg».proof.Proof.Stretch
import proofs.«152193_j37177236914939_1_alg».proof.Proof.Msg0
import proofs.«152193_j37177236914939_1_alg».proof.Proof.Msg2
import proofs.«152193_j37177236914939_1_alg».proof.Proof.Msg4
import proofs.«152193_j37177236914939_1_alg».proof.Proof.Comb1
import proofs.«152193_j37177236914939_1_alg».proof.Proof.Comb3
import proofs.«152193_j37177236914939_1_alg».proof.Proof.Comb5
import proofs.«152193_j37177236914939_1_alg».proof.Proof.Cls6
import proofs.«152193_j37177236914939_1_alg».proof.Proof.ClsLaw

set_option maxRecDepth 16384

noncomputable section

namespace Cert.KernelIdeal.Chain

open Cert.KernelIdeal Cert.KernelIdeal.Gen Cert.KernelIdeal.GenP
open Idealize.ShloMosaic Idealize.ShloMosaic.TcCoe Idealize.SL.Sem
open Cert.ReferenceIdeal.Read

/-- A buffer that nothing after the first stretch touches: no later stretch writes it and it is no region's output array. -/
def Later (r : Ref sig .tc) : Prop :=
  r ≠ main_v11 ∧ r ∉ Keep.wr1 ∧ r ≠ main_v15 ∧ r ∉ Keep.wr2 ∧ r ≠ main_v23 ∧ r ∉ Keep.wr3 ∧ r ≠ main_v27 ∧ r ∉ Keep.wr4
    ∧ r ≠ main_v35 ∧ r ∉ Keep.wr5 ∧ r ≠ main_v39 ∧ r ∉ Keep.wr6

instance (r : Ref sig .tc) : Decidable (Later r) := by unfold Later; infer_instance

variable (m : (ℓ : Loc nD τ sig) → Buf (Elt Ideal) ℓ) (ρ : Dev nD → PrngReg) (c : Dev nD)

/-! ## A buffer untouched after the first stretch holds at every later boundary what it held after that stretch -/

theorem at2 (r : Ref sig .tc) (h : Later r) : W2 m ρ c (Proc.devRef .tc r) = W1 m ρ c (Proc.devRef .tc r) :=
  Keep.reg0 m ρ c r h.1
theorem at3 (r : Ref sig .tc) (h : Later r) : W3 m ρ c (Proc.devRef .tc r) = W1 m ρ c (Proc.devRef .tc r) :=
  (Keep.host1 m ρ c r h.2.1).trans (at2 m ρ c r h)
theorem at4 (r : Ref sig .tc) (h : Later r) : W4 m ρ c (Proc.devRef .tc r) = W1 m ρ c (Proc.devRef .tc r) :=
  (Keep.reg1 m ρ c r h.2.2.1).trans (at3 m ρ c r h)
theorem at5 (r : Ref sig .tc) (h : Later r) : W5 m ρ c (Proc.devRef .tc r) = W1 m ρ c (Proc.devRef .tc r) :=
  (Keep.host2 m ρ c r h.2.2.2.1).trans (at4 m ρ c r h)
theorem at6 (r : Ref sig .tc) (h : Later r) : W6 m ρ c (Proc.devRef .tc r) = W1 m ρ c (Proc.devRef .tc r) :=
  (Keep.reg2 m ρ c r h.2.2.2.2.1).trans (at5 m ρ c r h)
theorem at7 (r : Ref sig .tc) (h : Later r) : W7 m ρ c (Proc.devRef .tc r) = W1 m ρ c (Proc.devRef .tc r) :=
  (Keep.host3 m ρ c r h.2.2.2.2.2.1).trans (at6 m ρ c r h)
theorem at8 (r : Ref sig .tc) (h : Later r) : W8 m ρ c (Proc.devRef .tc r) = W1 m ρ c (Proc.devRef .tc r) :=
  (Keep.reg3 m ρ c r h.2.2.2.2.2.2.1).trans (at7 m ρ c r h)
theorem at9 (r : Ref sig .tc) (h : Later r) : W9 m ρ c (Proc.devRef .tc r) = W1 m ρ c (Proc.devRef .tc r) :=
  (Keep.host4 m ρ c r h.2.2.2.2.2.2.2.1).trans (at8 m ρ c r h)
theorem at10 (r : Ref sig .tc) (h : Later r) : W10 m ρ c (Proc.devRef .tc r) = W1 m ρ c (Proc.devRef .tc r) :=
  (Keep.reg4 m ρ c r h.2.2.2.2.2.2.2.2.1).trans (at9 m ρ c r h)
theorem at11 (r : Ref sig .tc) (h : Later r) : W11 m ρ c (Proc.devRef .tc r) = W1 m ρ c (Proc.devRef .tc r) :=
  (Keep.host5 m ρ c r h.2.2.2.2.2.2.2.2.2.1).trans (at10 m ρ c r h)
theorem at12 (r : Ref sig .tc) (h : Later r) : W12 m ρ c (Proc.devRef .tc r) = W1 m ρ c (Proc.devRef .tc r) :=
  (Keep.reg5 m ρ c r h.2.2.2.2.2.2.2.2.2.2.1).trans (at11 m ρ c r h)
theorem at13 (r : Ref sig .tc) (h : Later r) : W13 m ρ c (Proc.devRef .tc r) = W1 m ρ c (Proc.devRef .tc r) :=
  (Keep.host6 m ρ c r h.2.2.2.2.2.2.2.2.2.2.2).trans (at12 m ρ c r h)

/-- An argument the first stretch does not write holds after it what was launched. -/
theorem arg1 (r : Ref sig .tc) (h : r ∉ Keep.wr0) : W1 m ρ c (Proc.devRef .tc r) = m ((c : Thread nD τ).loc r) :=
  Keep.host0 m ρ c r h

/-! ## The arguments as launched -/

abbrev x0 : (⟨S50000x128, .f32⟩ : BufTy).Contents (Elt Ideal) := m ((c : Thread nD τ).loc main_arg0)
abbrev x1 : (⟨S2x800000, .i32⟩ : BufTy).Contents (Elt Ideal) := m ((c : Thread nD τ).loc main_arg1)
abbrev x2 : (⟨S50000, .i32⟩ : BufTy).Contents (Elt Ideal) := m ((c : Thread nD τ).loc main_arg2)
abbrev x3 : (⟨S128x64, .f32⟩ : BufTy).Contents (Elt Ideal) := m ((c : Thread nD τ).loc main_arg3)
abbrev x4 : (⟨S128x64, .f32⟩ : BufTy).Contents (Elt Ideal) := m ((c : Thread nD τ).loc main_arg4)
abbrev x5 : (⟨S64x64, .f32⟩ : BufTy).Contents (Elt Ideal) := m ((c : Thread nD τ).loc main_arg5)
abbrev x6 : (⟨S64x64, .f32⟩ : BufTy).Contents (Elt Ideal) := m ((c : Thread nD τ).loc main_arg6)
abbrev x7 : (⟨S64x64, .f32⟩ : BufTy).Contents (Elt Ideal) := m ((c : Thread nD τ).loc main_arg7)
abbrev x8 : (⟨S64x64, .f32⟩ : BufTy).Contents (Elt Ideal) := m ((c : Thread nD τ).loc main_arg8)
abbrev x9 : (⟨S64x64, .f32⟩ : BufTy).Contents (Elt Ideal) := m ((c : Thread nD τ).loc main_arg9)
abbrev x10 : (⟨S64, .f32⟩ : BufTy).Contents (Elt Ideal) := m ((c : Thread nD τ).loc main_arg10)
abbrev x11 : (⟨S64x1, .f32⟩ : BufTy).Contents (Elt Ideal) := m ((c : Thread nD τ).loc main_arg11)
abbrev x12 : (⟨S1, .f32⟩ : BufTy).Contents (Elt Ideal) := m ((c : Thread nD τ).loc main_arg12)

/-! ## The first layer -/

theorem b1_src : W1 m ρ c (Proc.devRef .tc main_v1) = val_main_v1 (F := Ideal) (x1 m c) := Stretch.src (W0 m ρ c) _ rfl
theorem b1_dst : W1 m ρ c (Proc.devRef .tc main_v3) = val_main_v3 (F := Ideal) (x1 m c) := Stretch.dst (W0 m ρ c) _ rfl
theorem b1_rows : W1 m ρ c (Proc.devRef .tc main_v10) = val_main_v11 (F := Ideal) (x0 m c) (x1 m c) :=
  Stretch.gather1 (W0 m ρ c) _ _ rfl rfl

theorem b2_msg : W2 m ρ c (Proc.devRef .tc main_v11) = val_main_v12 (F := Ideal) (x0 m c) (x1 m c) (x4 m c) := by
  refine ((W2_arr m ρ c 2).trans (Msg0.final (V1 m ρ) c)).trans ?_
  show Msg0.prod (W1 m ρ c (Proc.devRef .tc main_v10)) (W1 m ρ c (Proc.devRef .tc main_arg4)) = _
  rw [b1_rows, arg1 m ρ c main_arg4 (by decide)]
  rfl

theorem b3_sum : W3 m ρ c (Proc.devRef .tc main_v14) = val_main_v15 (F := Ideal) (x0 m c) (x1 m c) (x4 m c) :=
  Stretch.scatter1 (W2 m ρ c) _ _ _ ((at2 m ρ c main_v3 (by decide)).trans (b1_dst m ρ c)) (b2_msg m ρ c)

theorem b4_out : W4 m ρ c (Proc.devRef .tc main_v15) = val_main_v17 (F := Ideal) (x0 m c) (x1 m c) (x3 m c) (x4 m c) := by
  refine ((W4_arr m ρ c 3).trans (Comb1.final (V3 m ρ) c)).trans ?_
  show Comb1.layer (W3 m ρ c (Proc.devRef .tc main_arg0)) (W3 m ρ c (Proc.devRef .tc main_arg3)) (W3 m ρ c (Proc.devRef .tc main_v14)) = _
  rw [(at3 m ρ c main_arg0 (by decide)).trans (arg1 m ρ c main_arg0 (by decide)),
    (at3 m ρ c main_arg3 (by decide)).trans (arg1 m ρ c main_arg3 (by decide)), b3_sum]
  rfl

/-! ## The second layer -/

theorem b5_rows : W5 m ρ c (Proc.devRef .tc main_v22) = val_main_v25 (F := Ideal) (x0 m c) (x1 m c) (x3 m c) (x4 m c) :=
  Stretch.gather2 (W4 m ρ c) _ _ _ _ ((at4 m ρ c main_v1 (by decide)).trans (b1_src m ρ c)) (b4_out m ρ c)

theorem b6_msg : W6 m ρ c (Proc.devRef .tc main_v23) = val_main_v26 (F := Ideal) (x0 m c) (x1 m c) (x3 m c) (x4 m c) (x6 m c) := by
  refine ((W6_arr m ρ c 2).trans (Msg2.final (V5 m ρ) c)).trans ?_
  show Msg2.prod (W5 m ρ c (Proc.devRef .tc main_v22)) (W5 m ρ c (Proc.devRef .tc main_arg6)) = _
  rw [b5_rows, (at5 m ρ c main_arg6 (by decide)).trans (arg1 m ρ c main_arg6 (by decide))]
  rfl

theorem b7_sum : W7 m ρ c (Proc.devRef .tc main_v26) = val_main_v29 (F := Ideal) (x0 m c) (x1 m c) (x3 m c) (x4 m c) (x6 m c) :=
  Stretch.scatter2 (W6 m ρ c) _ _ _ _ _ ((at6 m ρ c main_v3 (by decide)).trans (b1_dst m ρ c)) (b6_msg m ρ c)

theorem b7_prev : W7 m ρ c (Proc.devRef .tc main_v15) = val_main_v17 (F := Ideal) (x0 m c) (x1 m c) (x3 m c) (x4 m c) :=
  (Keep.host3 m ρ c main_v15 (by decide)).trans ((Keep.reg2 m ρ c main_v15 (by decide)).trans
    ((Keep.host2 m ρ c main_v15 (by decide)).trans (b4_out m ρ c)))

theorem b8_out : W8 m ρ c (Proc.devRef .tc main_v27)
    = val_main_v31 (F := Ideal) (x0 m c) (x1 m c) (x3 m c) (x4 m c) (x5 m c) (x6 m c) := by
  refine ((W8_arr m ρ c 3).trans (Comb3.final (V7 m ρ) c)).trans ?_
  show Comb3.layer (W7 m ρ c (Proc.devRef .tc main_v15)) (W7 m ρ c (Proc.devRef .tc main_arg5)) (W7 m ρ c (Proc.devRef .tc main_v26)) = _
  rw [b7_prev, (at7 m ρ c main_arg5 (by decide)).trans (arg1 m ρ c main_arg5 (by decide)), b7_sum]
  rfl

/-! ## The third layer -/

theorem b9_rows : W9 m ρ c (Proc.devRef .tc main_v34)
    = val_main_v39 (F := Ideal) (x0 m c) (x1 m c) (x3 m c) (x4 m c) (x5 m c) (x6 m c) :=
  Stretch.gather3 (W8 m ρ c) _ _ _ _ _ _ ((at8 m ρ c main_v1 (by decide)).trans (b1_src m ρ c)) (b8_out m ρ c)

theorem b10_msg : W10 m ρ c (Proc.devRef .tc main_v35)
    = val_main_v40 (F := Ideal) (x0 m c) (x1 m c) (x3 m c) (x4 m c) (x5 m c) (x6 m c) (x8 m c) := by
  refine ((W10_arr m ρ c 2).trans (Msg4.final (V9 m ρ) c)).trans ?_
  show Msg4.prod (W9 m ρ c (Proc.devRef .tc main_v34)) (W9 m ρ c (Proc.devRef .tc main_arg8)) = _
  rw [b9_rows, (at9 m ρ c main_arg8 (by decide)).trans (arg1 m ρ c main_arg8 (by decide))]
  rfl

theorem b11_sum : W11 m ρ c (Proc.devRef .tc main_v38)
    = val_main_v43 (F := Ideal) (x0 m c) (x1 m c) (x3 m c) (x4 m c) (x5 m c) (x6 m c) (x8 m c) :=
  Stretch.scatter3 (W10 m ρ c) _ _ _ _ _ _ _ ((at10 m ρ c main_v3 (by decide)).trans (b1_dst m ρ c)) (b10_msg m ρ c)

theorem b11_prev : W11 m ρ c (Proc.devRef .tc main_v27)
    = val_main_v31 (F := Ideal) (x0 m c) (x1 m c) (x3 m c) (x4 m c) (x5 m c) (x6 m c) :=
  (Keep.host5 m ρ c main_v27 (by decide)).trans ((Keep.reg4 m ρ c main_v27 (by decide)).trans
    ((Keep.host4 m ρ c main_v27 (by decide)).trans (b8_out m ρ c)))

theorem b12_out : W12 m ρ c (Proc.devRef .tc main_v39)
    = val_main_v45 (F := Ideal) (x0 m c) (x1 m c) (x3 m c) (x4 m c) (x5 m c) (x6 m c) (x7 m c) (x8 m c) := by
  refine ((W12_arr m ρ c 3).trans (Comb5.final (V11 m ρ) c)).trans ?_
  show Comb5.layer (W11 m ρ c (Proc.devRef .tc main_v27)) (W11 m ρ c (Proc.devRef .tc main_arg7)) (W11 m ρ c (Proc.devRef .tc main_v38)) = _
  rw [b11_prev, (at11 m ρ c main_arg7 (by decide)).trans (arg1 m ρ c main_arg7 (by decide)), b11_sum]
  rfl

/-! ## The mean over each graph and the classifier -/

theorem b13_pool : W13 m ρ c (Proc.devRef .tc main_v51)
    = val_main_v57 (F := Ideal) (x0 m c) (x1 m c) (x2 m c) (x3 m c) (x4 m c) (x5 m c) (x6 m c) (x7 m c) (x8 m c) :=
  Stretch.pool (W12 m ρ c) _ _ _ _ _ _ _ _ _ ((at12 m ρ c main_arg2 (by decide)).trans (arg1 m ρ c main_arg2 (by decide)))
    (b12_out m ρ c)

theorem b13_bias1 : W13 m ρ c (Proc.devRef .tc main_v52) = shapeCast S1x64 (x10 m c) shapeCasts_S64_S1x64 :=
  Stretch.bias1 (W12 m ρ c) _ ((at12 m ρ c main_arg10 (by decide)).trans (arg1 m ρ c main_arg10 (by decide)))

theorem b13_bias2 : W13 m ρ c (Proc.devRef .tc main_v53) = shapeCast S1x1 (x12 m c) shapeCasts_S1_S1x1 :=
  Stretch.bias2 (W12 m ρ c) _ ((at12 m ρ c main_arg12 (by decide)).trans (arg1 m ρ c main_arg12 (by decide)))

/-- THE RESULT: the last boundary's contents at the result buffer are the reference's last stage of the launch arguments. -/
theorem result : W14 m ρ c (Proc.devRef .tc main_v54)
    = val_main_v66 (F := Ideal) (x0 m c) (x1 m c) (x2 m c) (x3 m c) (x4 m c) (x5 m c) (x6 m c) (x7 m c) (x8 m c) (x9 m c)
        (x10 m c) (x11 m c) (x12 m c) := by
  refine ((W14_arr m ρ c 5).trans (Cls6.final (V13 m ρ) c)).trans ?_
  show Cls6.score (W13 m ρ c (Proc.devRef .tc main_v51)) (W13 m ρ c (Proc.devRef .tc main_arg9)) (W13 m ρ c (Proc.devRef .tc main_v52))
    (W13 m ρ c (Proc.devRef .tc main_arg11)) (W13 m ρ c (Proc.devRef .tc main_v53)) = _
  rw [b13_pool, b13_bias1, b13_bias2, (at13 m ρ c main_arg9 (by decide)).trans (arg1 m ρ c main_arg9 (by decide)),
    (at13 m ρ c main_arg11 (by decide)).trans (arg1 m ρ c main_arg11 (by decide))]
  unfold Cls6.score
  rw [ClsLaw.score_eq]
  rfl

end Cert.KernelIdeal.Chain

end
-- ==== Proof.lean ====
/-
  Three layers of message passing over a graph of 50000 nodes and 800000 edges, a mean over the nodes of each of 512 graphs, and
  a two-layer classifier. A layer takes each node's row x to max(x·W₁ + Σ over the edges into the node of (the source's row)·W₂, 0).
  The kernel computes the two products of every layer and the classifier's two products on the matrix unit, in row blocks and with
  its operands rounded to a shorter float format; the gather of the source rows, the sum of the message rows into their target
  rows and the mean are host operations, the same in both programs. Over the extended reals a change of float format is the
  identity, a product accumulated into zero is the plain product, and a product computed in row blocks is the product: so each
  kernel region leaves the reference's stage of the same arrays (Msg0, Msg2, Msg4, Comb1, Comb3, Comb5, Cls6 with ClsLaw), each
  host stretch computes the reference's next stage (Stretch), and the result buffer ends at the reference's last stage of the
  arguments (Chain). No law used needs the inputs finite. The ideal pass rewrote nothing, so there is nothing to preserve.
-/
import proofs.«152193_j37177236914939_1_alg».proof.Defs
import proofs.«152193_j37177236914939_1_alg».proof.Proof.Gen.Kernel
import proofs.«152193_j37177236914939_1_alg».proof.Proof.KernelFrameP
import proofs.«152193_j37177236914939_1_alg».proof.Proof.Gen.KernelIdeal
import proofs.«152193_j37177236914939_1_alg».proof.Proof.KernelIdealFrameP
import proofs.«152193_j37177236914939_1_alg».proof.Proof.KernelIdealRunP
import proofs.«152193_j37177236914939_1_alg».proof.Proof.Gen.ReferenceIdeal
import proofs.«152193_j37177236914939_1_alg».proof.Proof.Gen.ReferenceIdeal.Run
import proofs.«152193_j37177236914939_1_alg».proof.Proof.Gen.ReferenceIdeal.Read
import proofs.«152193_j37177236914939_1_alg».proof.Proof.Gen.Pre_finite_inputs
import proofs.«152193_j37177236914939_1_alg».proof.Proof.Chain
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel (hKernel := Cert.Kernel.Gen.facts) (hPre_finite_inputs := Cert.Pre_finite_inputs.Gen.facts) :=
  fun m ρ _ => Cert.Kernel.GenP.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the reference's last stage of those arguments in their
    result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.GenP.W14 m ρ c (Proc.devRef .tc Cert.KernelIdeal.main_v54), Cert.KernelIdeal.GenP.run_named (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v66 m' c = Cert.KernelIdeal.GenP.W14 m ρ c (Proc.devRef .tc Cert.KernelIdeal.main_v54)
  rw [Cert.ReferenceIdeal.Read.val_main_v66_eq, Cert.KernelIdeal.Chain.result m ρ c]
  obtain ⟨a0, a1, a2, a3, a4, a5, a6, a7, a8, a9, a10, a11, a12⟩ := hagree c
  rw [a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
